-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8192 : Shape := ⟨2, ![16384, 8192]⟩
abbrev S8192x8192 : Shape := ⟨2, ![8192, 8192]⟩
abbrev S_ : Shape := ⟨0, ![]⟩

class Facts : Prop where
  bcast_S_S16384x8192 : S_.BroadcastsInDim S16384x8192 (![] : Fin 0 → Fin S16384x8192.rank)
  reducesTo_S16384x8192_S_d0_1 : S16384x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S16384x8192 .f32) (main_arg1 : FVec F S8192x8192 .f32) : IVec S_ 1 :=
  let main_v0 : FVec F S16384x8192 .f32 := Host.absf main_arg0
  let main_cst : FVec F S_ .f32 := constant S_ .f32 0x7F800000#32
  let main_v1 : FVec F S16384x8192 .f32 := broadcastInDim S16384x8192 ![] bcast_S_S16384x8192 main_cst
  let main_v2 : IVec S16384x8192 1 := cmpf .olt main_v0 main_v1
  let main_c : IVec S_ 1 := constantI S_ 1 1#1
  let main_v3 : IVec S_ 1 := (fun x v => Host.reduce IntOp.andi x v reducesTo_S16384x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S16384x8192 : Shape := ⟨2, ![16384, 8192]⟩
abbrev S8192x8192 : Shape := ⟨2, ![8192, 8192]⟩
abbrev S16384x16 : Shape := ⟨2, ![16384, 16]⟩
abbrev S256x256 : Shape := ⟨2, ![256, 256]⟩
abbrev S256x8192 : Shape := ⟨2, ![256, 8192]⟩
abbrev S256x16 : Shape := ⟨2, ![256, 16]⟩
abbrev S256x512 : Shape := ⟨2, ![256, 512]⟩
abbrev S256 : Shape := ⟨1, ![256]⟩
abbrev S256x1 : Shape := ⟨2, ![256, 1]⟩

abbrev nBuf : Space → Nat
  | .hbm => 3
  | .vmem => 7
  | .smem => 0
  | _ => 0

abbrev bufTy : (tb : Table) → Fin (tcTables nBuf tb) → BufTy
  | .hbm, ⟨0, _⟩ => ⟨S16384x8192, .f32⟩
  | .hbm, ⟨1, _⟩ => ⟨S8192x8192, .f32⟩
  | .hbm, ⟨2, _⟩ => ⟨S16384x16, .f32⟩
  | .local _ .vmem, ⟨0, _⟩ => ⟨S256x256, .f32⟩
  | .local _ .vmem, ⟨1, _⟩ => ⟨S256x256, .f32⟩
  | .local _ .vmem, ⟨2, _⟩ => ⟨S256x8192, .f32⟩
  | .local _ .vmem, ⟨3, _⟩ => ⟨S256x8192, .f32⟩
  | .local _ .vmem, ⟨4, _⟩ => ⟨S256x16, .f32⟩
  | .local _ .vmem, ⟨5, _⟩ => ⟨S256x16, .f32⟩
  | .local _ .vmem, ⟨6, _⟩ => ⟨S256x8192, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 32], ![false, false]⟩

def k0_cond2 (i : grid0.Coords) : BitVec 1 :=
  let arg1 : BitVec 32 := BitVec.ofNat 32 (i 1).val
  let c31_i32 : BitVec 32 := 31#32
  let v13 : BitVec 1 := Scalar.cmpi .eq arg1 c31_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  slices_S256x8192_o0_0_S256x512 : S256x8192.Slices ![0, 0] S256x512
  reduces_S256x512_S256 : S256x512.Reduces [1] S256
  shapeCasts_S256_S256x1 : S256.ShapeCasts S256x1
  slices_S256x8192_o0_512_S256x512 : S256x8192.Slices ![0, 512] S256x512
  slices_S256x8192_o0_1024_S256x512 : S256x8192.Slices ![0, 1024] S256x512
  slices_S256x8192_o0_1536_S256x512 : S256x8192.Slices ![0, 1536] S256x512
  slices_S256x8192_o0_2048_S256x512 : S256x8192.Slices ![0, 2048] S256x512
  slices_S256x8192_o0_2560_S256x512 : S256x8192.Slices ![0, 2560] S256x512
  slices_S256x8192_o0_3072_S256x512 : S256x8192.Slices ![0, 3072] S256x512
  slices_S256x8192_o0_3584_S256x512 : S256x8192.Slices ![0, 3584] S256x512
  slices_S256x8192_o0_4096_S256x512 : S256x8192.Slices ![0, 4096] S256x512
  slices_S256x8192_o0_4608_S256x512 : S256x8192.Slices ![0, 4608] S256x512
  slices_S256x8192_o0_5120_S256x512 : S256x8192.Slices ![0, 5120] S256x512
  slices_S256x8192_o0_5632_S256x512 : S256x8192.Slices ![0, 5632] S256x512
  slices_S256x8192_o0_6144_S256x512 : S256x8192.Slices ![0, 6144] S256x512
  slices_S256x8192_o0_6656_S256x512 : S256x8192.Slices ![0, 6656] S256x512
  slices_S256x8192_o0_7168_S256x512 : S256x8192.Slices ![0, 7168] S256x512
  slices_S256x8192_o0_7680_S256x512 : S256x8192.Slices ![0, 7680] S256x512
  concatenates_S256x1_S256x1_S256x1_S256x1_S256x1_S256x1_S256x1_S256x1_S256x1_S256x1_S256x1_S256x1_S256x1_S256x1_S256x1_S256x1_S256x16_d1 : Shape.Concatenates [S256x1, S256x1, S256x1, S256x1, S256x1, S256x1, S256x1, S256x1, S256x1, S256x1, S256x1, S256x1, S256x1, S256x1, S256x1, S256x1] S256x16 1
  reduces_S256x16_S256 : S256x16.Reduces [1] S256
  broadcasts_S256x1_S256x16 : S256x1.Broadcasts S256x16
  inb_S256x16_S256x16_0_0 : ∀ a, (![0, 0] : Fin 2 → Nat) a + S256x16.size a ≤ S256x16.size a
  h_S256x16 : 0 < S256x16.numel
  dot_S256x256_S256x8192_S256x8192_1_0_0_1_n_n_wf : DotDims.WF S256x256 S256x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S16384x8192.size a
  hwx0_0 : ∀ i : grid0.Coords, EltTy.bits .f32 = 32 ∨ (Rect.block (s := S16384x8192) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S16384x16.size a
  hwx0_2 : ∀ i : grid0.Coords, EltTy.bits .f32 = 32 ∨ (Rect.block (s := S16384x16) S256x16.size (cc0_transform_2 i) (hinb0_2 i)).WholeWords (EltTy.packing .f32)

variable [Facts₀]

def dot_S256x256_S256x8192_S256x8192_1_0_0_1_n_n : DotDims S256x256 S256x8192 S256x8192 where
  lhsContracting := [1]
  rhsContracting := [0]
  lhsNonContracting := [0]
  rhsNonContracting := [1]
  lhsBatch := []
  rhsBatch := []
  wf := dot_S256x256_S256x8192_S256x8192_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x8192 : Shape := ⟨2, ![16384, 8192]⟩
abbrev S8192x8192 : Shape := ⟨2, ![8192, 8192]⟩
abbrev S16384x16x512 : Shape := ⟨3, ![16384, 16, 512]⟩
abbrev S_ : Shape := ⟨0, ![]⟩
abbrev S16384x16 : Shape := ⟨2, ![16384, 16]⟩
abbrev S16384 : Shape := ⟨1, ![16384]⟩
abbrev S16384x1 : Shape := ⟨2, ![16384, 1]⟩

abbrev nBuf : Space → Nat
  | .hbm => 18
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S8192x8192, .f32⟩
  | .hbm, ⟨2, _⟩ => ⟨S16384x8192, .f32⟩
  | .hbm, ⟨3, _⟩ => ⟨S16384x16x512, .f32⟩
  | .hbm, ⟨4, _⟩ => ⟨S16384x16x512, .f32⟩
  | .hbm, ⟨5, _⟩ => ⟨S_, .f32⟩
  | .hbm, ⟨6, _⟩ => ⟨S16384x16, .f32⟩
  | .hbm, ⟨7, _⟩ => ⟨S_, .f32⟩
  | .hbm, ⟨8, _⟩ => ⟨S16384x16, .f32⟩
  | .hbm, ⟨9, _⟩ => ⟨S16384x16, .f32⟩
  | .hbm, ⟨10, _⟩ => ⟨S_, .f32⟩
  | .hbm, ⟨11, _⟩ => ⟨S16384x16, .f32⟩
  | .hbm, ⟨12, _⟩ => ⟨S16384x16, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x16, .f32⟩
  | .hbm, ⟨17, _⟩ => ⟨S16384x16, .f32⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  shapeCasts_S16384x8192_S16384x16x512 : S16384x8192.ShapeCasts S16384x16x512
  reducesTo_S16384x16x512_S16384x16_d2 : S16384x16x512.ReducesTo [2] S16384x16
  h_S_ : 0 < S_.numel
  bcast_S_S16384x16 : S_.BroadcastsInDim S16384x16 (![] : Fin 0 → Fin S16384x16.rank)
  reducesTo_S16384x16_S16384_d1 : S16384x16.ReducesTo [1] S16384
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  dot_S16384x8192_S8192x8192_S16384x8192_1_0_0_1_n_n_wf : DotDims.WF S16384x8192 S8192x8192 S16384x8192 [1] [0] [0] [1] [] []

variable [Facts₀]

def dot_S16384x8192_S8192x8192_S16384x8192_1_0_0_1_n_n : DotDims S16384x8192 S8192x8192 S16384x8192 where
  lhsContracting := [1]
  rhsContracting := [0]
  lhsNonContracting := [0]
  rhsNonContracting := [1]
  lhsBatch := []
  rhsBatch := []
  wf := dot_S16384x8192_S8192x8192_S16384x8192_1_0_0_1_n_n_wf

class Facts : Prop extends Facts₀ where

variable [Facts]
-- ==== Proof.Pieces.lean ====
/-
  What one run of the kernel body leaves behind, case by case, as the body's own arithmetic.

  The body keeps a [256, 8192] accumulator across the 32 points of a row tile. At the tile's first point it stores zeros,
  reads them back, and stores `zeros + x·y` of the point's two input blocks; at every later point it stores
  `acc + x·y` over what the point before left; at the tile's last point it also reads the accumulator it has just stored
  and writes the output block computed from it.
-/
import proofs.«151559_j18296560681209_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The output block as a function of the finished accumulator: the sixteen segment energies, concatenated, shifted,
    scaled, and divided by their row sums. -/
def outOf (acc : Vec F S256x8192 .f32) : FVec F S256x16 .f32 :=
  k0_pay3 acc (k0_pay4 acc) (k0_pay5 acc) (k0_pay6 acc) (k0_pay7 acc) (k0_pay8 acc) (k0_pay9 acc) (k0_pay10 acc)
    (k0_pay11 acc) (k0_pay12 acc) (k0_pay13 acc) (k0_pay14 acc) (k0_pay15 acc)

/-- A later point of the tile leaves `acc + x·y` in the accumulator. -/
theorem acc_B (c : Dev nD) (i : grid0.Coords) (arg2 : Memref sig .tc .vmem S256x256 .f32) (harg2 : arg2.IsWhole) (arg3 : Memref sig .tc .vmem S256x8192 .f32) (harg3 : arg3.IsWhole) (arg4 : Memref sig .tc .vmem S256x16 .f32) (harg4 : arg4.IsWhole) (arg5 : Memref sig .tc .vmem S256x8192 .f32) (harg5 : arg5.IsWhole) (hc0 : ¬cond0_0 i) (hc1 : ¬cond0_1 i)
    (x0 : Vec F S256x256 .f32) (x1 : Vec F S256x8192 .f32) (xs0 : Vec F S256x8192 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread,
    View.ld_unit_zero (S := S256x256) hz, View.ld_unit_zero (S := S256x8192) hz]

/-- The tile's last point leaves the same `acc + x·y` in the accumulator. -/
theorem acc_C (c : Dev nD) (i : grid0.Coords) (arg2 : Memref sig .tc .vmem S256x256 .f32) (harg2 : arg2.IsWhole) (arg3 : Memref sig .tc .vmem S256x8192 .f32) (harg3 : arg3.IsWhole) (arg4 : Memref sig .tc .vmem S256x16 .f32) (harg4 : arg4.IsWhole) (arg5 : Memref sig .tc .vmem S256x8192 .f32) (harg5 : arg5.IsWhole) (hc0 : ¬cond0_0 i) (hc1 : cond0_1 i)
    (x0 : Vec F S256x256 .f32) (x1 : Vec F S256x8192 .f32) (xs0 : Vec F S256x8192 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread,
    View.ld_unit_zero (S := S256x256) hz, View.ld_unit_zero (S := S256x8192) hz]

/-- The tile's first point stores zeros, reads them back, and leaves `zeros + x·y`. -/
theorem acc_A (c : Dev nD) (i : grid0.Coords) (arg2 : Memref sig .tc .vmem S256x256 .f32) (harg2 : arg2.IsWhole) (arg3 : Memref sig .tc .vmem S256x8192 .f32) (harg3 : arg3.IsWhole) (arg4 : Memref sig .tc .vmem S256x16 .f32) (harg4 : arg4.IsWhole) (arg5 : Memref sig .tc .vmem S256x8192 .f32) (harg5 : arg5.IsWhole) (hc0 : cond0_0 i) (hc1 : ¬cond0_1 i)
    (x0 : Vec F S256x256 .f32) (x1 : Vec F S256x8192 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S256x8192) hz, View.readCov_unit_zero (S := S256x8192) _ hz]
  simp only [View.readAt_eq_ld, harg2.read_unread, harg3.read_unread,
    View.ld_unit_zero (S := S256x256) hz, View.ld_unit_zero (S := S256x8192) hz]

/-- The tile's last point writes the output block computed from the accumulator it has just stored. -/
theorem out_C (c : Dev nD) (i : grid0.Coords) (arg2 : Memref sig .tc .vmem S256x256 .f32) (harg2 : arg2.IsWhole) (arg3 : Memref sig .tc .vmem S256x8192 .f32) (harg3 : arg3.IsWhole) (arg4 : Memref sig .tc .vmem S256x16 .f32) (harg4 : arg4.IsWhole) (arg5 : Memref sig .tc .vmem S256x8192 .f32) (harg5 : arg5.IsWhole) (hc0 : ¬cond0_0 i) (hc1 : cond0_1 i)
    (x0 : Vec F S256x256 .f32) (x1 : Vec F S256x8192 .f32) (xs0 : Vec F S256x8192 .f32) :
    out0_C_2 c i arg2 harg2 arg3 harg3 arg4 harg4 arg5 harg5 hc0 hc1 x0 x1 xs0 = outOf (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz]
  simp only [View.readCov_unit_zero (S := S256x8192) _ hz, View.readAt_eq_ld, harg2.read_unread, harg3.read_unread,
    harg5.read_unread, View.ld_unit_zero (S := S256x256) hz, View.ld_unit_zero (S := S256x8192) hz]
  rfl

end Cert.KernelIdeal.Pieces

end
-- ==== Proof.Spec.lean ====
/-
  The function both programs compute, index by index, on the extended reals.

  With `z : [16384, 8192]` and `D : [8192, 8192]`, let `zD r n = ∑ k, z r k * D k n`. The 8192 columns fall into 16
  consecutive segments of 512. Of one row of `zD`, segment `c`'s energy is `∑ j < 512, (row (512 c + j))²`; it is
  shifted and scaled to `u c = (energy c + 2560) / 3072`, and the result at `(r, c)` is `u c / ∑ c' < 16, u c'` of
  row `r`.

  The one algebraic fact needed beside the definitions: a sum over `Fin 8192` is the sum over 32 consecutive chunks of
  256, in any commutative monoid (the extended reals' addition is one, infinities included).
-/
import Idealize.ShloMosaic.PureOps.Ideal
import Idealize.ShloMosaic.Lib.ValueIdx
import Mathlib.Algebra.BigOperators.Fin
import Mathlib.Algebra.BigOperators.Intervals

noncomputable section

namespace Cert.Spec

open Idealize.ShloMosaic Idealize.ShloMosaic.ValueIdx

abbrev SZ : Shape := ⟨2, ![16384, 8192]⟩
abbrev SD : Shape := ⟨2, ![8192, 8192]⟩
abbrev SO : Shape := ⟨2, ![16384, 16]⟩

/-- Column `512 c + j`: the `j`-th column of segment `c`. -/
def col (c : Fin 16) (j : Fin 512) : Fin 8192 := ⟨512 * c.val + j.val, by omega⟩

@[simp] theorem col_val (c : Fin 16) (j : Fin 512) : (col c j).val = 512 * c.val + j.val := rfl

/-- Contraction index `256 k' + kk`: the `kk`-th index of chunk `k'`. -/
def chunk (k' : Fin 32) (kk : Fin 256) : Fin 8192 := ⟨256 * k'.val + kk.val, by omega⟩

@[simp] theorem chunk_val (k' : Fin 32) (kk : Fin 256) : (chunk k' kk).val = 256 * k'.val + kk.val := rfl

/-- One entry of the product `z · D`. -/
def prodAt (z : SZ.Idx → EReal) (D : SD.Idx → EReal) (r : Fin 16384) (n : Fin 8192) : EReal :=
  ∑ k : Fin 8192, z (ix2 r k) * D (ix2 k n)

/-- The energy of segment `c` of a row. -/
def energyOf (row : Fin 8192 → EReal) (c : Fin 16) : EReal :=
  ∑ j : Fin 512, row (col c j) * row (col c j)

/-- The energy shifted by 2560 and divided by 3072 (both exact binary values, kept as their words). -/
def shiftedOf (row : Fin 8192 → EReal) (c : Fin 16) : EReal :=
  Ideal.div (energyOf row c + Ideal.ofBits .f32 0x45200000#32) (Ideal.ofBits .f32 0x45400000#32)

/-- A row's sixteen shifted energies, each divided by their sum. -/
def normOf (row : Fin 8192 → EReal) (c : Fin 16) : EReal :=
  Ideal.div (shiftedOf row c) (∑ c' : Fin 16, shiftedOf row c')

/-- The result: `normOf` of each row of the product. -/
def G (z : SZ.Idx → EReal) (D : SD.Idx → EReal) : SO.Idx → EReal := fun i =>
  normOf (fun n => prodAt z D (i 0) n) (i 1)

theorem G_ix2 (z : SZ.Idx → EReal) (D : SD.Idx → EReal) (r : Fin 16384) (c : Fin 16) :
    G z D (ix2 r c) = normOf (fun n => prodAt z D r n) c := rfl

/-- A sum over `Fin 8192` is the sum over 32 chunks of 256 consecutive indices. -/
theorem sum_chunks {M : Type*} [AddCommMonoid M] (f : Fin 8192 → M) :
    ∑ k : Fin 8192, f k = ∑ k' : Fin 32, ∑ kk : Fin 256, f (chunk k' kk) := by
  rw [← Fintype.sum_prod_type']
  refine (Fintype.sum_equiv (finProdFinEquiv (m := 32) (n := 256)) _ _ (fun x => ?_)).symm
  refine congrArg f (Fin.ext ?_)
  show 256 * x.1.val + x.2.val = x.2.val + 256 * x.1.val
  omega

end Cert.Spec

end
-- ==== Proof.LibKeepdims.lean ====
/-
  Reductions that keep their axis, read at an index.

  jnp's keepdims=True leaves a reduced axis in place with extent one: a row reduction of an [a, b] array comes
  out as a column [a, 1], and meets other arrays by being spread back over b columns. Three facts, at any
  extents:

    an [a] vector cast to a column [a, 1] holds, in row r, the vector's entry r;
    a column [a, 1] broadcast to [a, b] holds, at (p, c), the column's entry of row p;
    over the extended reals a minimum-reduction along one axis is, at each kept index, the fold of the minimum
      from the starting value over that axis's coordinates, in any order (the minimum commutes and associates).
-/
import Idealize.ShloMosaic.PureOps.Ideal.Laws
import Idealize.ShloMosaic.Lib.Pipeline.Value
import Idealize.ShloMosaic.Lib.ValueIdx

namespace Cert.Keepdims

open Idealize.ShloMosaic Idealize.ShloMosaic.ValueIdx

variable {α : Type}

/-- An [a] array cast to a column [a, 1] reads, at (r, u), the operand at r, whatever the unit coordinate u. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column [a, 1] broadcast to [a, b] reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float minimum-reduction over ONE axis, read over the extended reals: at each kept index, the fold of the
    minimum from the starting value over that axis's coordinates. -/
theorem multiReduction_minimumf_single {s t : Shape} {a : Fin s.rank} {φ : FTy} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

end Cert.Keepdims
-- ==== Proof.PayIdx.lean ====
/-
  The body's arithmetic, read at an index on the extended reals.

  The accumulator update at `(p, n)` is `acc p n + ∑ kk < 256, x p kk * y kk n` (narrowing the two factors to bf16 changes
  nothing over the extended reals, and a product into a zero accumulator is the plain sum). The output block at
  `(p, c)` is `Spec.normOf` of row `p` of the accumulator: segment `c` of the concatenation is the energy of the
  columns `512 c … 512 c + 511`, then the shift, the scale, the row sum over 16 segments and the quotient.
-/
import proofs.«151559_j18296560681209_1_alg».proof.Proof.Pieces
import proofs.«151559_j18296560681209_1_alg».proof.Proof.Spec
import proofs.«151559_j18296560681209_1_alg».proof.Proof.LibKeepdims
import Idealize.ShloMosaic.PureOps.Ideal.Laws
import Idealize.ShloMosaic.Lib.Pipeline.Value
import Idealize.ShloMosaic.Lib.ValueIdx

noncomputable section

namespace Cert.KernelIdeal.PayIdx

open Cert.KernelIdeal Cert.KernelIdeal.Gen Idealize.ShloMosaic Idealize.ShloMosaic.ValueIdx

/-! ## The block product -/

theorem lhs_ax0 (i : S256x8192.Idx) (q : dot_S256x256_S256x8192_S256x8192_1_0_0_1_n_n.contr.Idx) :
    (dot_S256x256_S256x8192_S256x8192_1_0_0_1_n_n.lhsIdx i q 0).val = (i 0).val := by
  unfold DotDims.lhsIdx
  rw [dif_neg (show ¬(0 : Fin S256x256.rank) ∈ dot_S256x256_S256x8192_S256x8192_1_0_0_1_n_n.lhsBatch by decide), dif_pos (show (0 : Fin S256x256.rank) ∈ dot_S256x256_S256x8192_S256x8192_1_0_0_1_n_n.lhsNonContracting by decide)]
  rfl
theorem lhs_ax1 (i : S256x8192.Idx) (q : dot_S256x256_S256x8192_S256x8192_1_0_0_1_n_n.contr.Idx) :
    (dot_S256x256_S256x8192_S256x8192_1_0_0_1_n_n.lhsIdx i q 1).val = (q ⟨0, by decide⟩).val :=
  dot_S256x256_S256x8192_S256x8192_1_0_0_1_n_n.lhsIdx_val_of_single rfl i q
theorem rhs_ax0 (i : S256x8192.Idx) (q : dot_S256x256_S256x8192_S256x8192_1_0_0_1_n_n.contr.Idx) :
    (dot_S256x256_S256x8192_S256x8192_1_0_0_1_n_n.rhsIdx i q 0).val = (q ⟨0, by decide⟩).val :=
  dot_S256x256_S256x8192_S256x8192_1_0_0_1_n_n.rhsIdx_val_of_single rfl i q
theorem rhs_ax1 (i : S256x8192.Idx) (q : dot_S256x256_S256x8192_S256x8192_1_0_0_1_n_n.contr.Idx) :
    (dot_S256x256_S256x8192_S256x8192_1_0_0_1_n_n.rhsIdx i q 1).val = (i 1).val := by
  unfold DotDims.rhsIdx
  rw [dif_neg (show ¬(1 : Fin S256x8192.rank) ∈ dot_S256x256_S256x8192_S256x8192_1_0_0_1_n_n.rhsBatch by decide), dif_pos (show (1 : Fin S256x8192.rank) ∈ dot_S256x256_S256x8192_S256x8192_1_0_0_1_n_n.rhsNonContracting by decide)]
  rfl

/-- The product of a [256, 256] block and a [256, 8192] block into zeros, at `(p, n)`. -/
theorem block_product (x : FVec Ideal S256x256 .bf16) (y : FVec Ideal S256x8192 .bf16) (p : Fin 256) (n : Fin 8192) :
    matmul dot_S256x256_S256x8192_S256x8192_1_0_0_1_n_n none x y (constant (F := Ideal) S256x8192 .f32 0x00000000#32) (ix2 p n)
      = ∑ kk : Fin 256, x (ix2 p kk) * y (ix2 kk n) := by
  simp only [matmul]
  rw [Ideal.matmul_constant_zero_apply, ← Equiv.sum_comp (ValueIdx.contrEquiv1 dot_S256x256_S256x8192_S256x8192_1_0_0_1_n_n 256 rfl rfl).symm]
  refine Finset.sum_congr rfl fun k _ => ?_
  have hk := ValueIdx.contrEquiv1_symm_val dot_S256x256_S256x8192_S256x8192_1_0_0_1_n_n 256 rfl rfl k
  have el : dot_S256x256_S256x8192_S256x8192_1_0_0_1_n_n.lhsIdx (ix2 p n) ((ValueIdx.contrEquiv1 dot_S256x256_S256x8192_S256x8192_1_0_0_1_n_n 256 rfl rfl).symm k) = ix2 p k := funext fun a => Fin.ext (by
    match a with
    | ⟨0, _⟩ => exact lhs_ax0 _ _
    | ⟨1, _⟩ => exact (lhs_ax1 _ _).trans hk)
  have er : dot_S256x256_S256x8192_S256x8192_1_0_0_1_n_n.rhsIdx (ix2 p n) ((ValueIdx.contrEquiv1 dot_S256x256_S256x8192_S256x8192_1_0_0_1_n_n 256 rfl rfl).symm k) = ix2 k n := funext fun a => Fin.ext (by
    match a with
    | ⟨0, _⟩ => exact (rhs_ax0 _ _).trans hk
    | ⟨1, _⟩ => exact rhs_ax1 _ _)
  rw [el, er]

/-- The zero block the first point stores. -/
theorem zeros_apply (y : S256x8192.Idx) : k0_pay1 (F := Ideal) y = 0 := by
  show Ideal.ofBits .f32 0x00000000#32 = 0
  exact Ideal.ofBits_zero_f32

/-- The accumulator update at `(p, n)`. -/
theorem update_apply (x0 : Vec Ideal S256x256 .f32) (x1 : Vec Ideal S256x8192 .f32) (acc : Vec Ideal S256x8192 .f32)
    (p : Fin 256) (n : Fin 8192) :
    k0_pay2 (F := Ideal) x0 x1 acc (ix2 p n) = acc (ix2 p n) + ∑ kk : Fin 256, x0 (ix2 p kk) * x1 (ix2 kk n) := by
  unfold k0_pay2
  rw [shapeCast_self]
  exact congrArg (acc (ix2 p n) + ·) ((block_product _ _ p n).trans (Finset.sum_congr rfl fun kk _ => rfl))

/-- The product of a point's two input blocks: the addend of that point. -/
def mm (x0 : Vec Ideal S256x256 .f32) (x1 : Vec Ideal S256x8192 .f32) : Vec Ideal S256x8192 .f32 :=
  fun y => k0_pay2 (F := Ideal) x0 x1 (fun _ => 0) y

theorem mm_apply (x0 : Vec Ideal S256x256 .f32) (x1 : Vec Ideal S256x8192 .f32) (p : Fin 256) (n : Fin 8192) :
    mm x0 x1 (ix2 p n) = ∑ kk : Fin 256, x0 (ix2 p kk) * x1 (ix2 kk n) := by
  unfold mm
  rw [update_apply, zero_add]

/-- The update adds the point's addend to whatever the accumulator held. -/
theorem update_eq (x0 : Vec Ideal S256x256 .f32) (x1 : Vec Ideal S256x8192 .f32) (acc : Vec Ideal S256x8192 .f32)
    (y : S256x8192.Idx) : k0_pay2 (F := Ideal) x0 x1 acc y = acc y + mm x0 x1 y := by
  obtain ⟨p, n, rfl⟩ : ∃ (p : Fin 256) (n : Fin 8192), y = ix2 p n := ⟨y 0, y 1, eq_ix2 y⟩
  rw [update_apply, mm_apply]

/-! ## Lane sums -/

theorem lane_sum512 (x : FVec Ideal S256x512 .f32) (h : S256x512.Reduces [1] S256) (hφ : FKind.Formats .f32)
    (hacc : (0x00000000#32 : BitVec (FTy.bits .f32)) = FKind.add.neutral .f32 hφ) (p : Fin 256) :
    multiReduction (F := Ideal) .add [1] S256 x 0x00000000#32 h hφ hacc (ix1 p) = ∑ j : Fin 512, x (ix2 p j) :=
  (Ideal.multiReduction_add_single x 0x00000000#32 h hφ hacc (ix1 p)).trans
    (Finset.sum_congr rfl fun j _ => congrArg x (funext fun a => by match a with | ⟨0, _⟩ => rfl | ⟨1, _⟩ => rfl))

theorem lane_sum16 (x : FVec Ideal S256x16 .f32) (h : S256x16.Reduces [1] S256) (hφ : FKind.Formats .f32)
    (hacc : (0x00000000#32 : BitVec (FTy.bits .f32)) = FKind.add.neutral .f32 hφ) (p : Fin 256) :
    multiReduction (F := Ideal) .add [1] S256 x 0x00000000#32 h hφ hacc (ix1 p) = ∑ c : Fin 16, x (ix2 p c) :=
  (Ideal.multiReduction_add_single x 0x00000000#32 h hφ hacc (ix1 p)).trans
    (Finset.sum_congr rfl fun c _ => congrArg x (funext fun a => by match a with | ⟨0, _⟩ => rfl | ⟨1, _⟩ => rfl))

/-! ## One segment's energy, as a column -/

/-- The slice at column offset `512 c`, squared, summed along its 512 lanes, as a column: row `p` holds the energy of
    segment `c` of row `p` of the accumulator. -/
theorem seg_energy (off : ℕ) (c : Fin 16) (hoff : off = 512 * c.val) (acc : Vec Ideal S256x8192 .f32)
    (hs : S256x8192.Slices ![0, off] S256x512) (hr : S256x512.Reduces [1] S256) (hφ : FKind.Formats .f32)
    (hacc : (0x00000000#32 : BitVec (FTy.bits .f32)) = FKind.add.neutral .f32 hφ) (hc : S256.ShapeCasts S256x1) (p : Fin 256) (u : Fin 1) :
    shapeCast S256x1 (multiReduction (F := Ideal) .add [1] S256
        (mulf (extractStridedSlice S256x512 ![0, off] acc hs) (extractStridedSlice S256x512 ![0, off] acc hs))
        0x00000000#32 hr hφ hacc) hc (ix2 p u)
      = Spec.energyOf (fun n => acc (ix2 p n)) c := by
  refine (Cert.Keepdims.shapeCast_a_a1_apply _ hc p u).trans ?_
  refine (lane_sum512 _ hr hφ hacc p).trans ?_
  unfold Spec.energyOf
  refine Finset.sum_congr rfl fun j _ => ?_
  have e : extractStridedSlice S256x512 ![0, off] acc hs (ix2 p j) = acc (ix2 p (Spec.col c j)) :=
    extractStridedSlice_apply ![0, off] acc hs (ix2 p j) (ix2 p (Spec.col c j)) (fun a => by
      match a with
      | ⟨0, _⟩ => show p.val = 0 + p.val; omega
      | ⟨1, _⟩ => show 512 * c.val + j.val = off + j.val; omega)
  show extractStridedSlice S256x512 ![0, off] acc hs (ix2 p j) * extractStridedSlice S256x512 ![0, off] acc hs (ix2 p j) = _
  rw [e]

/-! ## From the sixteen energies to the output -/

/-- Off the concatenation axis a column index and the block index agree. -/
theorem off_axis (p : Fin 256) (c : Fin 16) : ∀ b : Fin S256x1.rank, b.cast (rfl : S256x1.rank = S256x16.rank) ≠ (1 : Fin S256x16.rank) →
    ((ix2 p (0 : Fin 1)) b).val = ((ix2 p c) (b.cast (rfl : S256x1.rank = S256x16.rank))).val := by
  intro b hb
  match b with
  | ⟨0, _⟩ => rfl
  | ⟨1, _⟩ => exact absurd rfl hb

/-- The shift, the scale, the row sum and the quotient, over any [256, 16] block whose row `p` holds the sixteen
    energies of a row. -/
theorem tail_apply (E : FVec Ideal S256x16 .f32) (row : Fin 8192 → EReal) (p : Fin 256)
    (hE : ∀ c : Fin 16, E (ix2 p c) = Spec.energyOf row c)
    (hr : S256x16.Reduces [1] S256) (hφ : FKind.Formats .f32) (hacc : (0x00000000#32 : BitVec (FTy.bits .f32)) = FKind.add.neutral .f32 hφ)
    (hc : S256.ShapeCasts S256x1) (hb : S256x1.Broadcasts S256x16) (c : Fin 16) :
    divf (divf (addf E (broadcast S256x16 (Scalar.ofBits (F := Ideal) .f32 0x45200000#32))) (broadcast S256x16 (Scalar.ofBits (F := Ideal) .f32 0x45400000#32)))
      (broadcastTo S256x16 (shapeCast S256x1 (multiReduction (F := Ideal) .add [1] S256 (divf (addf E (broadcast S256x16 (Scalar.ofBits (F := Ideal) .f32 0x45200000#32))) (broadcast S256x16 (Scalar.ofBits (F := Ideal) .f32 0x45400000#32)))
        0x00000000#32 hr hφ hacc) hc) hb) (ix2 p c)
      = Spec.normOf row c := by
  have hsh : ∀ c' : Fin 16, (divf (addf E (broadcast S256x16 (Scalar.ofBits (F := Ideal) .f32 0x45200000#32))) (broadcast S256x16 (Scalar.ofBits (F := Ideal) .f32 0x45400000#32))) (ix2 p c') = Spec.shiftedOf row c' := fun c' => by
    show Ideal.div (E (ix2 p c') + _) _ = _
    rw [hE c']
    rfl
  refine (divf_apply _ _ _).trans ?_
  unfold Spec.normOf
  refine congr (congrArg Ideal.div (hsh c)) ?_
  refine (Cert.Keepdims.broadcastTo_a1_ab_apply _ hb p c).trans ?_
  refine (Cert.Keepdims.shapeCast_a_a1_apply _ hc p 0).trans ?_
  refine (lane_sum16 _ hr hφ hacc p).trans ?_
  exact Finset.sum_congr rfl fun c' _ => hsh c'

end Cert.KernelIdeal.PayIdx

end
-- ==== Proof.Accum.lean ====
/-
  The accumulator over one row tile.

  The grid is 64 row tiles × 32 contraction chunks, row-major: point `t` is tile `t / 32`, chunk `t % 32`. At it the
  kernel stages rows `256 (t / 32) …` and columns `256 (t % 32) …` of `z`, and rows `256 (t % 32) …` of `D`. The
  accumulator is reset at chunk 0 and gains the point's block product at every chunk, so after chunk 31 it holds, at
  `(p, n)`, the sum over the 32 chunks of the 256-term partial sums: entry `(256 (t / 32) + p, n)` of `z · D`.
-/
import proofs.«151559_j18296560681209_1_alg».proof.Proof.Gen.KernelIdeal.Value
import proofs.«151559_j18296560681209_1_alg».proof.Proof.PayIdx

noncomputable section

namespace Cert.KernelIdeal.Accum

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The two argument arrays as the region finds them, and a point's two input blocks, at their literal types. -/
abbrev zarr (c : Dev nD) : Vec Ideal S16384x8192 .f32 := V m c main_arg0
abbrev darr (c : Dev nD) : Vec Ideal S8192x8192 .f32 := V m c main_arg1
abbrev zblk (c : Dev nD) (t : Fin cfg0.N) : Vec Ideal S256x256 .f32 := iblk m c 0 t
abbrev dblk (c : Dev nD) (t : Fin cfg0.N) : Vec Ideal S256x8192 .f32 := iblk m c 1 t

/-- The index maps over the grid: tile `t / 32`, chunk `t % 32`. -/
theorem idx_facts : ∀ t : Fin cfg0.N, win0_0.index t (0 : Fin 2) = t.val / 32 ∧ win0_0.index t (1 : Fin 2) = t.val % 32
    ∧ win0_1.index t (0 : Fin 2) = t.val % 32 ∧ win0_1.index t (1 : Fin 2) = 0
    ∧ win0_2.index t (0 : Fin 2) = t.val / 32 ∧ win0_2.index t (1 : Fin 2) = 0 :=
  (by decide +kernel : ∀ t : Fin grid0.N, _)

/-- The `z` block of point `t` at `(p, kk)` is `z` at row `256 (t / 32) + p`, column `256 (t % 32) + kk`. -/
theorem zblk_apply (c : Dev nD) (t : Fin cfg0.N) (p kk : Fin 256) (r : Fin 16384) (k : Fin 8192)
    (hr : r.val = 256 * (t.val / 32) + p.val) (hk : k.val = 256 * (t.val % 32) + kk.val) :
    zblk m c t (ix2 p kk) = zarr m c (ix2 r k) := by
  obtain ⟨e0, e1, -, -, -, -⟩ := idx_facts t
  show V m c main_arg0 (((cfg0.win 0).blk t).view.emb (ix2 p kk)) = V m c main_arg0 (ix2 r k)
  refine congrArg (V m c main_arg0) (funext fun a => Fin.ext ?_)
  match a with
  | ⟨0, _⟩ => show win0_0.index t (0 : Fin 2) * 256 + 1 * p.val = r.val; omega
  | ⟨1, _⟩ => show win0_0.index t (1 : Fin 2) * 256 + 1 * kk.val = k.val; omega

/-- The `D` block of point `t` at `(kk, n)` is `D` at row `256 (t % 32) + kk`, column `n`. -/
theorem dblk_apply (c : Dev nD) (t : Fin cfg0.N) (kk : Fin 256) (n : Fin 8192) (k : Fin 8192)
    (hk : k.val = 256 * (t.val % 32) + kk.val) :
    dblk m c t (ix2 kk n) = darr m c (ix2 k n) := by
  obtain ⟨-, -, e2, e3, -, -⟩ := idx_facts t
  show V m c main_arg1 (((cfg0.win 1).blk t).view.emb (ix2 kk n)) = V m c main_arg1 (ix2 k n)
  refine congrArg (V m c main_arg1) (funext fun a => Fin.ext ?_)
  match a with
  | ⟨0, _⟩ => show win0_1.index t (0 : Fin 2) * 256 + 1 * kk.val = k.val; omega
  | ⟨1, _⟩ => show win0_1.index t (1 : Fin 2) * 8192 + 1 * n.val = n.val; omega

/-! ## What each point does to the accumulator -/

theorem step_first (c : Dev nD) (t : Fin cfg0.N) (h0 : t.val % 32 = 0) (h1 : ¬t.val % 32 = 31) (acc : Vec Ideal S256x8192 .f32) :
    Value.scAt0_0 m c t.val t.isLt acc = k0_pay2 (F := Ideal) (zblk m c t) (dblk m c t) (k0_pay1 (F := Ideal)) := by
  unfold Value.scAt0_0
  rw [dif_pos h0, dif_neg h1]
  exact Pieces.acc_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

theorem step_mid (c : Dev nD) (t : Fin cfg0.N) (h0 : ¬t.val % 32 = 0) (h1 : ¬t.val % 32 = 31) (acc : Vec Ideal S256x8192 .f32) :
    Value.scAt0_0 m c t.val t.isLt acc = k0_pay2 (F := Ideal) (zblk m c t) (dblk m c t) acc := by
  unfold Value.scAt0_0
  rw [dif_neg h0, dif_neg h1]
  exact Pieces.acc_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) acc

theorem step_last (c : Dev nD) (t : Fin cfg0.N) (h0 : ¬t.val % 32 = 0) (h1 : t.val % 32 = 31) (acc : Vec Ideal S256x8192 .f32) :
    Value.scAt0_0 m c t.val t.isLt acc = k0_pay2 (F := Ideal) (zblk m c t) (dblk m c t) acc := by
  unfold Value.scAt0_0
  rw [dif_neg h0, dif_pos h1]
  exact Pieces.acc_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) acc

/-- Point `n`'s addend: the product of its two blocks (zero past the grid, where it is never used). -/
def addend (c : Dev nD) (n : ℕ) : S256x8192.Idx → EReal := fun y =>
  if h : n < cfg0.N then PayIdx.mm (zblk m c ⟨n, h⟩) (dblk m c ⟨n, h⟩) y else 0

/-- The accumulator after point `t`: the sum of the addends of its tile's points up to `t`. -/
theorem scratch_fold (c : Dev nD) (t : Fin cfg0.N) (y : S256x8192.Idx) :
    (outsAt0 m c t.val t.isLt).2 y = 0 + ∑ s ∈ Finset.range (t.val % 32 + 1), addend m c (32 * (t.val / 32) + s) y := by
  rw [Value.soutsAt0_0_eq m c t]
  refine Pipeline.accAt_add_apply _ _ (fun _ => (0 : EReal)) (addend m c) (32 * (t.val / 32)) 31 ?_ ?_ (t.val % 32) (by omega) _ y
  · intro h i
    have h0 : (32 * (t.val / 32)) % 32 = 0 := Nat.mul_mod_right _ _
    have h1 : ¬(32 * (t.val / 32)) % 32 = 31 := by omega
    refine (congrFun (step_first m c ⟨32 * (t.val / 32), h⟩ h0 h1 _) i).trans ?_
    rw [PayIdx.update_eq, PayIdx.zeros_apply]
    unfold addend
    rw [dif_pos h]
  · intro n h acc i hbn hne
    have h0 : ¬n % 32 = 0 := by omega
    unfold addend
    rw [dif_pos h]
    by_cases h1 : n % 32 = 31
    · exact (congrFun (step_last m c ⟨n, h⟩ h0 h1 acc) i).trans (PayIdx.update_eq _ _ _ i)
    · exact (congrFun (step_mid m c ⟨n, h⟩ h0 h1 acc) i).trans (PayIdx.update_eq _ _ _ i)

/-- After a tile's last point the accumulator holds the tile's rows of `z · D`. -/
theorem acc_final (c : Dev nD) (t : Fin cfg0.N) (h31 : t.val % 32 = 31) (p : Fin 256) (n : Fin 8192) (r : Fin 16384)
    (hr : r.val = 256 * (t.val / 32) + p.val) :
    (outsAt0 m c t.val t.isLt).2 (ix2 p n) = Spec.prodAt (zarr m c) (darr m c) r n := by
  have hN : cfg0.N = 2048 := N_0
  have ht : t.val < 2048 := lt_of_lt_of_eq t.isLt hN
  have hfold := scratch_fold m c t (ix2 p n)
  rw [h31, zero_add] at hfold
  refine hfold.trans ?_
  show ∑ s ∈ Finset.range 32, addend m c (32 * (t.val / 32) + s) (ix2 p n) = _
  rw [Finset.sum_range]
  unfold Spec.prodAt
  rw [Spec.sum_chunks]
  refine Finset.sum_congr rfl fun s _ => ?_
  have hs : s.val < 32 := s.isLt
  have hlt : 32 * (t.val / 32) + s.val < cfg0.N :=
    lt_of_lt_of_eq (show 32 * (t.val / 32) + s.val < 2048 by omega) hN.symm
  unfold addend
  rw [dif_pos hlt, PayIdx.mm_apply]
  refine Finset.sum_congr rfl fun kk _ => ?_
  have hkk : kk.val < 256 := kk.isLt
  rw [zblk_apply m c ⟨32 * (t.val / 32) + s.val, hlt⟩ p kk r (Spec.chunk s kk)
      (by show r.val = 256 * ((32 * (t.val / 32) + s.val) / 32) + p.val; omega)
      (by show 256 * s.val + kk.val = 256 * ((32 * (t.val / 32) + s.val) % 32) + kk.val; omega),
    dblk_apply m c ⟨32 * (t.val / 32) + s.val, hlt⟩ kk n (Spec.chunk s kk)
      (by show 256 * s.val + kk.val = 256 * ((32 * (t.val / 32) + s.val) % 32) + kk.val; omega)]

end Cert.KernelIdeal.Accum

end
-- ==== Proof.OutIdx.lean ====
/-
  The output block at an index: segment `k` of the sixteen-way concatenation is the `k`-th column, and that column is
  the energy of the accumulator's columns `512 k … 512 k + 511`; the rest is the shift, the scale and the row quotient.
-/
import proofs.«151559_j18296560681209_1_alg».proof.Proof.PayIdx

noncomputable section

namespace Cert.KernelIdeal.PayIdx

open Cert.KernelIdeal Cert.KernelIdeal.Gen Idealize.ShloMosaic Idealize.ShloMosaic.ValueIdx

/-- Segment `k` of the concatenation is the `k`-th piece; that piece is the energy of the slice at offset `512 k`. -/
local macro "seg_case " k:num off:num p:ident acc:ident : tactic =>
  `(tactic| (
      refine (concatenate_apply_piece (1 : Fin 2) _ _ (ix2 $p (⟨$k, by decide⟩ : Fin 16)) $k ?hk S256x1 ?x ?hxk rfl $k ?hpre
        (ix2 $p (0 : Fin 1)) ?hi ?ha).trans ?fin
      case hk => exact (by decide : $k < 16)
      case hxk => rfl
      case hpre => rfl
      case hi => exact off_axis $p _
      case ha => rfl
      case fin => exact seg_energy $off ⟨$k, by decide⟩ rfl $acc _ _ _ _ _ $p 0))

set_option maxHeartbeats 4000000 in
/-- The output block at `(p, c)`. -/
theorem outOf_apply (acc : Vec Ideal S256x8192 .f32) (p : Fin 256) (c : Fin 16) :
    Pieces.outOf (F := Ideal) acc (ix2 p c) = Spec.normOf (fun n => acc (ix2 p n)) c := by
  unfold Pieces.outOf k0_pay3
  refine tail_apply _ (fun n => acc (ix2 p n)) p (fun c' => ?_) _ _ _ _ _ c
  match c' with
  | ⟨0, _⟩ => seg_case 0 0 p acc
  | ⟨1, _⟩ => seg_case 1 512 p acc
  | ⟨2, _⟩ => seg_case 2 1024 p acc
  | ⟨3, _⟩ => seg_case 3 1536 p acc
  | ⟨4, _⟩ => seg_case 4 2048 p acc
  | ⟨5, _⟩ => seg_case 5 2560 p acc
  | ⟨6, _⟩ => seg_case 6 3072 p acc
  | ⟨7, _⟩ => seg_case 7 3584 p acc
  | ⟨8, _⟩ => seg_case 8 4096 p acc
  | ⟨9, _⟩ => seg_case 9 4608 p acc
  | ⟨10, _⟩ => seg_case 10 5120 p acc
  | ⟨11, _⟩ => seg_case 11 5632 p acc
  | ⟨12, _⟩ => seg_case 12 6144 p acc
  | ⟨13, _⟩ => seg_case 13 6656 p acc
  | ⟨14, _⟩ => seg_case 14 7168 p acc
  | ⟨15, _⟩ => seg_case 15 7680 p acc
  | ⟨n + 16, h⟩ => exact absurd h (by omega)

end Cert.KernelIdeal.PayIdx

end
-- ==== Proof.Final.lean ====
/-
  The kernel's result array.

  Only a tile's last point writes its output block back, and what it writes is computed from the accumulator it has
  just finished: row `p` of block `t / 32` is `Spec.normOf` of row `256 (t / 32) + p` of `z · D`. The 64 written blocks
  of 256 rows tile the [16384, 16] array, so the array ends at `Spec.G` of the two arguments.
-/
import proofs.«151559_j18296560681209_1_alg».proof.Proof.Accum
import proofs.«151559_j18296560681209_1_alg».proof.Proof.OutIdx

noncomputable section

namespace Cert.KernelIdeal.Final

open Cert.KernelIdeal Cert.KernelIdeal.Gen Idealize.ShloMosaic Idealize.ShloMosaic.TcCoe Idealize.SL.Sem
open Idealize.ShloMosaic.ValueIdx Cert.KernelIdeal.Accum
open Idealize.ShloMosaic.Pipeline (Dat)

variable (m : (ℓ : Loc nD τ sig) → Buf (Elt Ideal) ℓ) (ρ : Dev nD → PrngReg)

/-- The result as contents of the result array. -/
abbrev result (c : Dev nD) : Buf (Elt Ideal) ((c : Thread nD τ).loc main_v0) := Spec.G (zarr m c) (darr m c)

/-- The accumulator a tile's last point reads back is the one that point leaves. -/
theorem last_acc (c : Dev nD) (t : Fin cfg0.N) (h0 : ¬t.val % 32 = 0) (h31 : t.val % 32 = 31) :
    k0_pay2 (F := Ideal) (zblk m c t) (dblk m c t) (outsAt0 m c (t.val - 1) (Nat.lt_of_le_of_lt (Nat.sub_le _ _) t.isLt)).2
      = (outsAt0 m c t.val t.isLt).2 := by
  rw [outsAt0_C m c t h0 h31]
  dsimp only
  exact (Pieces.acc_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h31) (iblk m c 0 t) (iblk m c 1 t) _).symm

/-- What a tile's last point writes back is its block of the result. -/
theorem flushed_eq (c : Dev nD) (t : Fin cfg0.N) (hf : (cfg0.win 2).flush t = true) :
    (dats m 0 c).flushed 2 t = ((cfg0.win 2).blk t).view.read (Elt Ideal) (result m c) := by
  have h31 : t.val % 32 = 31 := (flush0_2 t).mp hf
  have h0 : ¬t.val % 32 = 0 := by omega
  obtain ⟨-, -, -, -, e4, e5⟩ := idx_facts t
  have hN : cfg0.N = 2048 := N_0
  have ht : t.val < 2048 := lt_of_lt_of_eq t.isLt hN
  rw [Value.flushed2_C m c t h0 h31]
  rw [Pieces.out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h31) (iblk m c 0 t) (iblk m c 1 t) _]
  rw [last_acc m c t h0 h31]
  funext j
  obtain ⟨p, cc, rfl⟩ : ∃ (p : Fin 256) (cc : Fin 16), j = ix2 p cc := ⟨j 0, j 1, @eq_ix2 256 16 j⟩
  show Pieces.outOf (F := Ideal) (outsAt0 m c t.val t.isLt).2 (ix2 p cc)
    = Spec.G (zarr m c) (darr m c) (((cfg0.win 2).blk t).view.emb (ix2 p cc))
  have hp : p.val < 256 := p.isLt
  have hemb : ((cfg0.win 2).blk t).view.emb (ix2 p cc) = ix2 (⟨256 * (t.val / 32) + p.val, by omega⟩ : Fin 16384) cc :=
    funext fun a => Fin.ext (by
      match a with
      | ⟨0, _⟩ => show win0_2.index t (0 : Fin 2) * 256 + 1 * p.val = 256 * (t.val / 32) + p.val; omega
      | ⟨1, _⟩ => show win0_2.index t (1 : Fin 2) * 16 + 1 * cc.val = cc.val; omega)
  rw [hemb, Spec.G_ix2, PayIdx.outOf_apply]
  refine congrArg (fun row => Spec.normOf row cc) (funext fun n => ?_)
  exact acc_final m c t h31 p n _ rfl

/-- Every index of the result array lies in the block some tile's last point writes. -/
theorem cover (i : S16384x16.Idx) : ∃ t : Fin cfg0.N, (cfg0.win 2).flush t = true ∧ i ∈ ((cfg0.win 2).blk t).view.set := by
  have hN : cfg0.N = 2048 := N_0
  have hi0 : (i 0).val < 16384 := (i 0).isLt
  have hi1 : (i 1).val < 16 := (i 1).isLt
  let t : Fin cfg0.N := ⟨32 * ((i 0).val / 256) + 31,
    lt_of_lt_of_eq (show 32 * ((i 0).val / 256) + 31 < 2048 by omega) hN.symm⟩
  have htv : t.val = 32 * ((i 0).val / 256) + 31 := rfl
  obtain ⟨-, -, -, -, e4, e5⟩ := idx_facts t
  refine ⟨t, (flush0_2 t).mpr (by rw [htv]; omega), ?_⟩
  show i ∈ ((View.whole main_v0).slice (win0_2.rect t)).set
  rw [View.set_slice_whole, Rect.mem_set_unit]
  intro a
  match a with
  | ⟨0, _⟩ =>
    show win0_2.index t (0 : Fin 2) * 256 ≤ (i 0).val ∧ (i 0).val < win0_2.index t (0 : Fin 2) * 256 + 256
    rw [e4, htv]; omega
  | ⟨1, _⟩ =>
    show win0_2.index t (1 : Fin 2) * 16 ≤ (i 1).val ∧ (i 1).val < win0_2.index t (1 : Fin 2) * 16 + 16
    rw [e5]; omega

/-- The result array after the run. -/
theorem final (c : Dev nD) : (dats m 0 c).arrAt 2 cfg0.N = result m c :=
  (dats m 0 c).arrAt_eq_of_cover 2 (result m c) (flushed_eq m c) cover

/-- The run, read: the result array at `Spec.G` of the arguments as launched, the arguments unchanged. -/
theorem run : θ_run defs (onTc (τ := τ) (main (F := Ideal))) ⟨m, fun _ => 0, ρ⟩ fun r => ∀ c : Dev nD,
      r.2.mem ((c : Thread nD τ).loc main_v0)
          = Spec.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Final

end
-- ==== Proof.RefSide.lean ====
/-
  The reference's result, read one operation at a time, is the specification `Spec.G`.

  The reference forms the whole product `z · D`, reshapes its 8192 columns to 16 × 512 (row-major: column `512 c + j`
  becomes `(c, j)`), squares, sums over `j` from 0, adds 2560, divides by 3072, sums each row over the 16 segments from
  0, and divides each entry by its row's sum. On the extended reals a sum "from 0" is the sum (`0 + x = x`), and the
  host's quotient is the same quotient the kernel takes.
-/
import proofs.«151559_j18296560681209_1_alg».proof.Proof.Gen.ReferenceIdeal.Read
import proofs.«151559_j18296560681209_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

variable (x0 : S16384x8192.Idx → EReal) (x1 : S8192x8192.Idx → EReal)

/-- The flattened position of `(r, c, j)` in `[16384, 16, 512]` is `r · 8192 + (512 c + j)`: row `r`, column `512 c + j`. -/
theorem reshape_idx (r : Fin 16384) (c : Fin 16) (j : Fin 512) : idx_main_v1 (ix3 r c j) = ix2 r (Spec.col c j) := by
  funext a
  match a with
  | ⟨0, _⟩ => exact Fin.ext (by show ((r.val * 16 + c.val) * 512 + j.val) / 8192 = r.val; omega)
  | ⟨1, _⟩ => exact Fin.ext (by show ((r.val * 16 + c.val) * 512 + j.val) % 8192 = 512 * c.val + j.val; omega)

/-- The host's product at `(r, n)` is the sum over the contraction index. -/
theorem product_at (r : Fin 16384) (n : Fin 8192) :
    val_main_v0 (F := Ideal) x0 x1 (ix2 r n) = Spec.prodAt x0 x1 r n := by
  rw [val_main_v0_apply]
  unfold Spec.prodAt
  refine Finset.sum_congr rfl fun k _ => ?_
  rw [show lidx_main_v0 (ix2 r n) k = ix2 r k from funext fun a => by match a with | ⟨0, _⟩ => rfl | ⟨1, _⟩ => rfl,
    show ridx_main_v0 (ix2 r n) k = ix2 k n from funext fun a => by match a with | ⟨0, _⟩ => rfl | ⟨1, _⟩ => rfl]

/-- The sum of squares over a segment, taken from 0, is the segment's energy. -/
theorem energy_at (r : Fin 16384) (c : Fin 16) :
    val_main_v3 (F := Ideal) x0 x1 (ix2 r c) = Spec.energyOf (fun n => Spec.prodAt x0 x1 r n) c := by
  rw [val_main_v3_apply, val_main_cst_apply]
  show Ideal.ofBits .f32 0x00000000#32 + _ = _
  rw [Ideal.ofBits_zero_f32, zero_add]
  unfold Spec.energyOf
  refine Finset.sum_congr rfl fun j _ => ?_
  rw [val_main_v2_apply, val_main_v1_apply]
  rw [show idx_main_v3 (ix2 r c) j = ix3 r c j from funext fun a => by
    match a with | ⟨0, _⟩ => rfl | ⟨1, _⟩ => rfl | ⟨2, _⟩ => rfl]
  rw [reshape_idx r c j, product_at]
  rfl

/-- Shifted by 2560 and divided by 3072. -/
theorem shifted_at (r : Fin 16384) (c : Fin 16) :
    val_main_v7 (F := Ideal) x0 x1 (ix2 r c) = Spec.shiftedOf (fun n => Spec.prodAt x0 x1 r n) c := by
  rw [val_main_v7_apply, val_main_v5_apply, energy_at, val_main_v4_apply, val_main_v6_apply, val_main_cst_0_apply,
    val_main_cst_1_apply]
  rfl

/-- A row's sum over the 16 segments, taken from 0. -/
theorem rowsum_at (r : Fin 16384) :
    val_main_v8 (F := Ideal) x0 x1 (ix1 r) = ∑ c : Fin 16, Spec.shiftedOf (fun n => Spec.prodAt x0 x1 r n) c := by
  rw [val_main_v8_apply, val_main_cst_2_apply]
  show Ideal.ofBits .f32 0x00000000#32 + _ = _
  rw [Ideal.ofBits_zero_f32, zero_add]
  refine Finset.sum_congr rfl fun c _ => ?_
  rw [show idx_main_v8 (ix1 r) c = ix2 r c from funext fun a => by match a with | ⟨0, _⟩ => rfl | ⟨1, _⟩ => rfl]
  exact shifted_at x0 x1 r c

/-- The reference's result is `Spec.G` of its two arguments. -/
theorem result_eq : val_main_v11 (F := Ideal) x0 x1 = Spec.G x0 x1 := by
  funext i
  obtain ⟨r, c, rfl⟩ : ∃ (r : Fin 16384) (c : Fin 16), i = ix2 r c := ⟨i 0, i 1, eq_ix2 i⟩
  rw [Spec.G_ix2, val_main_v11_apply, val_main_v10_apply, val_main_v9_apply, shifted_at]
  rw [show idx_main_v9 (idx_main_v10 (ix2 r c)) = ix1 r from funext fun a => by match a with | ⟨0, _⟩ => rfl]
  rw [rowsum_at]
  rfl

end Cert.ReferenceIdeal.RefValue

end
-- ==== Proof.lean ====
/-
  `Cert.Claim` for the segment-energy kernel: `z · D` accumulated over 32 contraction chunks per row tile, each row's
  8192 entries squared and summed in 16 segments of 512, shifted by 2560, divided by 3072, and normalised by the row's
  sum over the segments — against the reference that forms `z · D` whole, reshapes to [16384, 16, 512] and does the
  same arithmetic.

  Over the extended reals both are `Spec.G` (Proof/Spec.lean) of the two arguments: narrowing the matrix factors to
  bf16 is the identity there, a product accumulated chunk by chunk from zeros is the whole contraction regrouped (a
  finite sum in a commutative monoid: no finiteness of the inputs is used), a sum "from 0" is the sum, and the two
  programs' quotients are one function. The kernel's side is Proof/Final.lean over Proof/Accum.lean (the accumulator
  after a tile's last point), Proof/PayIdx.lean (the body's arithmetic at an index) and Proof/Pieces.lean (what one
  run of the body leaves); the reference's is Proof/RefSide.lean. The three frames are the generated ones; the
  idealization rewrote nothing, so `preserves` is `True`.
-/
import proofs.«151559_j18296560681209_1_alg».proof.Defs
import proofs.«151559_j18296560681209_1_alg».proof.Proof.Gen.Kernel
import proofs.«151559_j18296560681209_1_alg».proof.Proof.Gen.Kernel.Skeleton
import proofs.«151559_j18296560681209_1_alg».proof.Proof.Gen.Kernel.Launch
import proofs.«151559_j18296560681209_1_alg».proof.Proof.Gen.Kernel.Points
import proofs.«151559_j18296560681209_1_alg».proof.Proof.Gen.Kernel.Frame
import proofs.«151559_j18296560681209_1_alg».proof.Proof.Gen.KernelIdeal
import proofs.«151559_j18296560681209_1_alg».proof.Proof.Gen.KernelIdeal.Skeleton
import proofs.«151559_j18296560681209_1_alg».proof.Proof.Gen.KernelIdeal.Launch
import proofs.«151559_j18296560681209_1_alg».proof.Proof.Gen.KernelIdeal.Points
import proofs.«151559_j18296560681209_1_alg».proof.Proof.Gen.KernelIdeal.Frame
import proofs.«151559_j18296560681209_1_alg».proof.Proof.Gen.ReferenceIdeal
import proofs.«151559_j18296560681209_1_alg».proof.Proof.Gen.Pre_finite_inputs
import proofs.«151559_j18296560681209_1_alg».proof.Proof.Gen.KernelIdeal.Value
import proofs.«151559_j18296560681209_1_alg».proof.Proof.Gen.ReferenceIdeal.Run
import proofs.«151559_j18296560681209_1_alg».proof.Proof.Gen.ReferenceIdeal.Read
import proofs.«151559_j18296560681209_1_alg».proof.Proof.Final
import proofs.«151559_j18296560681209_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- Both programs end with `Spec.G` of the (agreeing) arguments in their first result and the first argument, unchanged,
    in their second. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => m ((c.tc : Thread Cert.KernelIdeal.nD Cert.KernelIdeal.τ).loc Cert.KernelIdeal.main_arg0), ?_, ?_⟩
  · exact (θ_run Cert.KernelIdeal.defs _ _).mono (fun r h c => ⟨(h c).1, (h c).2.1, (h c).2.1, (h c).2.2⟩)
      (Cert.KernelIdeal.Final.run m ρ)
  · refine (θ_run Cert.ReferenceIdeal.defs _ _).mono (fun r h c => ⟨?_, ?_, (h c).2.2.1, (h c).2.2.2⟩)
      (Cert.ReferenceIdeal.Value.run (F := Ideal) m' ρ')
    · rw [(h c).1, Cert.ReferenceIdeal.Read.val_main_v11_eq, Cert.ReferenceIdeal.RefValue.result_eq, (hagree c).1,
        (hagree c).2]
    · exact (h c).2.1.trans (hagree c).1

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
